-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192 : Shape := ⟨1, ![8192]⟩
abbrev S5000x512 : Shape := ⟨2, ![5000, 512]⟩
abbrev S100000 : Shape := ⟨1, ![100000]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S5000x512 : S_.BroadcastsInDim S5000x512 (![] : Fin 0 → Fin S5000x512.rank)
  reducesTo_S5000x512_S_d0_1 : S5000x512.ReducesTo [0, 1] S_

variable [Facts]

def fn {F : FTy → Type} [FloatOps F] (main_arg0 : FVec F S8192x512 .f32) (main_arg1 : IVec S8192 32) (main_arg2 : FVec F S5000x512 .f32) (main_arg3 : IVec S100000 32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S5000x512 .f32 := Host.absf main_arg2
  let main_cst_0 : FVec F S_ .f32 := constant S_ .f32 0x7F800000#32
  let main_v5 : FVec F S5000x512 .f32 := broadcastInDim S5000x512 ![] bcast_S_S5000x512 main_cst_0
  let main_v6 : IVec S5000x512 1 := cmpf .olt main_v4 main_v5
  let main_c_1 : IVec S_ 1 := constantI S_ 1 1#1
  let main_v7 : IVec S_ 1 := (fun x v => Host.reduce IntOp.andi x v reducesTo_S5000x512_S_d0_1 h_S_) main_v6 main_c_1
  let main_v8 : IVec S_ 1 := andi main_v3 main_v7
  main_v8
-- ==== Kernel.lean ====
abbrev S8192x512 : Shape := ⟨2, ![8192, 512]⟩
abbrev S8192 : Shape := ⟨1, ![8192]⟩
abbrev S5000x512 : Shape := ⟨2, ![5000, 512]⟩
abbrev S100000 : Shape := ⟨1, ![100000]⟩
abbrev S_ : Shape := ⟨0, ![]⟩
abbrev S8192x1 : Shape := ⟨2, ![8192, 1]⟩
abbrev S5000 : Shape := ⟨1, ![5000]⟩
abbrev S5000x1 : Shape := ⟨2, ![5000, 1]⟩
abbrev S8192x5000 : Shape := ⟨2, ![8192, 5000]⟩
abbrev S256x1 : Shape := ⟨2, ![256, 1]⟩
abbrev S256x512 : Shape := ⟨2, ![256, 512]⟩
abbrev S256x5000 : Shape := ⟨2, ![256, 5000]⟩
abbrev S256 : Shape := ⟨1, ![256]⟩

abbrev nBuf : Space → Nat
  | .hbm => 16
  | .vmem => 9
  | .smem => 0
  | _ => 0

abbrev bufTy : (tb : Table) → Fin (tcTables nBuf tb) → BufTy
  | .hbm, ⟨0, _⟩ => ⟨S8192x512, .f32⟩
  | .hbm, ⟨1, _⟩ => ⟨S8192, .i32⟩
  | .hbm, ⟨2, _⟩ => ⟨S5000x512, .f32⟩
  | .hbm, ⟨3, _⟩ => ⟨S100000, .i32⟩
  | .hbm, ⟨4, _⟩ => ⟨S_, .i32⟩
  | .hbm, ⟨5, _⟩ => ⟨S8192, .i32⟩
  | .hbm, ⟨6, _⟩ => ⟨S8192, .i1⟩
  | .hbm, ⟨7, _⟩ => ⟨S_, .i32⟩
  | .hbm, ⟨8, _⟩ => ⟨S8192, .i32⟩
  | .hbm, ⟨9, _⟩ => ⟨S8192, .i32⟩
  | .hbm, ⟨10, _⟩ => ⟨S8192, .i32⟩
  | .hbm, ⟨11, _⟩ => ⟨S8192x1, .i32⟩
  | .hbm, ⟨12, _⟩ => ⟨S8192, .i32⟩
  | .hbm, ⟨13, _⟩ => ⟨S8192x1, .i32⟩
  | .hbm, ⟨14, _⟩ => ⟨S5000x512, .bf16⟩
  | .hbm, ⟨15, _⟩ => ⟨S8192x5000, .f32⟩
  | .local _ .vmem, ⟨0, _⟩ => ⟨S5000x512, .f32⟩
  | .local _ .vmem, ⟨1, _⟩ => ⟨S5000x512, .bf16⟩
  | .local _ .vmem, ⟨2, _⟩ => ⟨S256x1, .i32⟩
  | .local _ .vmem, ⟨3, _⟩ => ⟨S256x1, .i32⟩
  | .local _ .vmem, ⟨4, _⟩ => ⟨S256x512, .f32⟩
  | .local _ .vmem, ⟨5, _⟩ => ⟨S256x512, .f32⟩
  | .local _ .vmem, ⟨6, _⟩ => ⟨S5000x512, .bf16⟩
  | .local _ .vmem, ⟨7, _⟩ => ⟨S256x5000, .f32⟩
  | .local _ .vmem, ⟨8, _⟩ => ⟨S256x5000, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg3_1 : Ref sig .tc := ⟨.vmem, 8, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem3_0 : DmaSem sig := 7
abbrev cc1_sem3_1 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S5000x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S5000x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S5000x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x5000 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  shapeCasts_S8192_S8192x1 : S8192.ShapeCasts S8192x1
  inb_S5000x512_S5000x512_0_0 : ∀ a, (![0, 0] : Fin 2 → Nat) a + S5000x512.size a ≤ S5000x512.size a
  h_S5000x512 : 0 < S5000x512.numel
  reduces_S5000x512_S5000 : S5000x512.Reduces [1] S5000
  shapeCasts_S5000_S5000x1 : S5000.ShapeCasts S5000x1
  broadcasts_S5000x1_S5000x512 : S5000x1.Broadcasts S5000x512
  bitsLt_bf16_f32 : FTy.bits .bf16 < FTy.bits .f32
  packedbf16_S5000x512_S5000x512_0_0 : (Rect.unit (s := S5000x512) ![0, 0] S5000x512.size inb_S5000x512_S5000x512_0_0).PackedRows (EltTy.packing .bf16)
  inb_S256x512_S256x512_0_0 : ∀ a, (![0, 0] : Fin 2 → Nat) a + S256x512.size a ≤ S256x512.size a
  h_S256x512 : 0 < S256x512.numel
  reduces_S256x512_S256 : S256x512.Reduces [1] S256
  shapeCasts_S256_S256x1 : S256.ShapeCasts S256x1
  broadcasts_S256x1_S256x512 : S256x1.Broadcasts S256x512
  shapeCasts_S5000x512_S5000x512 : S5000x512.ShapeCasts S5000x512
  inb_S256x1_S256x1_0_0 : ∀ a, (![0, 0] : Fin 2 → Nat) a + S256x1.size a ≤ S256x1.size a
  h_S256x1 : 0 < S256x1.numel
  shapeCasts_S256x1_S256x1 : S256x1.ShapeCasts S256x1
  iota_S256x5000_d1_w32 : S256x5000.Iotas .tc 32 [1]
  broadcasts_S256x1_S256x5000 : S256x1.Broadcasts S256x5000
  inb_S256x5000_S256x5000_0_0 : ∀ a, (![0, 0] : Fin 2 → Nat) a + S256x5000.size a ≤ S256x5000.size a
  h_S256x5000 : 0 < S256x5000.numel
  gather_S100000_S8192x1_S8192_n_0_n_n_0_1_1_wf : GatherDims.WF S100000 S8192x1 S8192 [] [0] [] [0] [] 1 ![1]
  dot_S256x512_S5000x512_S256x5000_1_1_0_0_n_n_wf : DotDims.WF S256x512 S5000x512 S256x5000 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S5000x512.size a
  hwx0_0 : ∀ i : grid0.Coords, EltTy.bits .f32 = 32 ∨ (Rect.block (s := S5000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5000x512.size a ≤ S5000x512.size a
  hwx0_1 : ∀ i : grid0.Coords, EltTy.bits .bf16 = 32 ∨ (Rect.block (s := S5000x512) S5000x512.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1.size a ≤ S8192x1.size a
  hwx1_0 : ∀ i : grid1.Coords, EltTy.bits .i32 = 32 ∨ (Rect.block (s := S8192x1) S256x1.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x512.size a ≤ S8192x512.size a
  hwx1_1 : ∀ i : grid1.Coords, EltTy.bits .f32 = 32 ∨ (Rect.block (s := S8192x512) S256x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S5000x512.size a ≤ S5000x512.size a
  hwx1_2 : ∀ i : grid1.Coords, EltTy.bits .bf16 = 32 ∨ (Rect.block (s := S5000x512) S5000x512.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x5000.size a ≤ S8192x5000.size a
  hwx1_3 : ∀ i : grid1.Coords, EltTy.bits .f32 = 32 ∨ (Rect.block (s := S8192x5000) S256x5000.size (cc1_transform_3 i) (hinb1_3 i)).WholeWords (EltTy.packing .f32)

variable [Facts₀]

def gather_S100000_S8192x1_S8192_n_0_n_n_0_1_1 : GatherDims S100000 S8192x1 S8192 where
  offsetDims := []
  collapsedSliceDims := [0]
  operandBatchingDims := []
  startIndicesBatchingDims := []
  startIndexMap := [0]
  indexVectorDim := 1
  sliceSizes := ![1]
  wf := gather_S100000_S8192x1_S8192_n_0_n_n_0_1_1_wf
def dot_S256x512_S5000x512_S256x5000_1_1_0_0_n_n : DotDims S256x512 S5000x512 S256x5000 where
  lhsContracting := [1]
  rhsContracting := [1]
  lhsNonContracting := [0]
  rhsNonContracting := [0]
  lhsBatch := []
  rhsBatch := []
  wf := dot_S256x512_S5000x512_S256x5000_1_1_0_0_n_n_wf

abbrev win0_0 : Pipeline.Window sig grid0 :=
  Pipeline.Window.ofSpec (Memref.whole main_arg2) S5000x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v8) S5000x512.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v7) S256x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S256x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S5000x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S256x5000.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x512 : Shape := ⟨2, ![8192, 512]⟩
abbrev S8192 : Shape := ⟨1, ![8192]⟩
abbrev S5000x512 : Shape := ⟨2, ![5000, 512]⟩
abbrev S100000 : Shape := ⟨1, ![100000]⟩
abbrev S_ : Shape := ⟨0, ![]⟩
abbrev S8192x1 : Shape := ⟨2, ![8192, 1]⟩
abbrev S5000 : Shape := ⟨1, ![5000]⟩
abbrev S5000x1 : Shape := ⟨2, ![5000, 1]⟩
abbrev S512x5000 : Shape := ⟨2, ![512, 5000]⟩
abbrev S8192x5000 : Shape := ⟨2, ![8192, 5000]⟩
abbrev S1x5000 : Shape := ⟨2, ![1, 5000]⟩

abbrev nBuf : Space → Nat
  | .hbm => 66
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192, .i32⟩
  | .hbm, ⟨2, _⟩ => ⟨S5000x512, .f32⟩
  | .hbm, ⟨3, _⟩ => ⟨S100000, .i32⟩
  | .hbm, ⟨4, _⟩ => ⟨S_, .i32⟩
  | .hbm, ⟨5, _⟩ => ⟨S8192, .i32⟩
  | .hbm, ⟨6, _⟩ => ⟨S8192, .i1⟩
  | .hbm, ⟨7, _⟩ => ⟨S_, .i32⟩
  | .hbm, ⟨8, _⟩ => ⟨S8192, .i32⟩
  | .hbm, ⟨9, _⟩ => ⟨S8192, .i32⟩
  | .hbm, ⟨10, _⟩ => ⟨S8192, .i32⟩
  | .hbm, ⟨11, _⟩ => ⟨S8192x1, .i32⟩
  | .hbm, ⟨12, _⟩ => ⟨S8192, .i32⟩
  | .hbm, ⟨13, _⟩ => ⟨S8192x512, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S8192x1, .f32⟩
  | .hbm, ⟨18, _⟩ => ⟨S8192x512, .f32⟩
  | .hbm, ⟨19, _⟩ => ⟨S8192x512, .f32⟩
  | .hbm, ⟨20, _⟩ => ⟨S5000x512, .f32⟩
  | .hbm, ⟨21, _⟩ => ⟨S_, .f32⟩
  | .hbm, ⟨22, _⟩ => ⟨S5000, .f32⟩
  | .hbm, ⟨23, _⟩ => ⟨S5000x1, .f32⟩
  | .hbm, ⟨24, _⟩ => ⟨S5000x1, .f32⟩
  | .hbm, ⟨25, _⟩ => ⟨S5000x512, .f32⟩
  | .hbm, ⟨26, _⟩ => ⟨S5000x512, .f32⟩
  | .hbm, ⟨27, _⟩ => ⟨S512x5000, .f32⟩
  | .hbm, ⟨28, _⟩ => ⟨S8192x5000, .f32⟩
  | .hbm, ⟨29, _⟩ => ⟨S8192x5000, .f32⟩
  | .hbm, ⟨30, _⟩ => ⟨S_, .f32⟩
  | .hbm, ⟨31, _⟩ => ⟨S8192x5000, .f32⟩
  | .hbm, ⟨32, _⟩ => ⟨S8192x5000, .f32⟩
  | .hbm, ⟨33, _⟩ => ⟨S_, .f32⟩
  | .hbm, ⟨34, _⟩ => ⟨S8192x5000, .f32⟩
  | .hbm, ⟨35, _⟩ => ⟨S8192x5000, .f32⟩
  | .hbm, ⟨36, _⟩ => ⟨S8192x5000, .f32⟩
  | .hbm, ⟨37, _⟩ => ⟨S_, .f32⟩
  | .hbm, ⟨38, _⟩ => ⟨S8192x5000, .f32⟩
  | .hbm, ⟨39, _⟩ => ⟨S8192x5000, .f32⟩
  | .hbm, ⟨40, _⟩ => ⟨S_, .f32⟩
  | .hbm, ⟨41, _⟩ => ⟨S8192x5000, .f32⟩
  | .hbm, ⟨42, _⟩ => ⟨S8192x5000, .f32⟩
  | .hbm, ⟨43, _⟩ => ⟨S8192x5000, .f32⟩
  | .hbm, ⟨44, _⟩ => ⟨S_, .f32⟩
  | .hbm, ⟨45, _⟩ => ⟨S8192x5000, .f32⟩
  | .hbm, ⟨46, _⟩ => ⟨S8192x5000, .i1⟩
  | .hbm, ⟨47, _⟩ => ⟨S_, .f32⟩
  | .hbm, ⟨48, _⟩ => ⟨S8192x5000, .f32⟩
  | .hbm, ⟨49, _⟩ => ⟨S8192x5000, .f32⟩
  | .hbm, ⟨50, _⟩ => ⟨S8192x5000, .f32⟩
  | .hbm, ⟨51, _⟩ => ⟨S8192x1, .i32⟩
  | .hbm, ⟨52, _⟩ => ⟨S1x5000, .i32⟩
  | .hbm, ⟨53, _⟩ => ⟨S8192x5000, .i32⟩
  | .hbm, ⟨54, _⟩ => ⟨S8192x5000, .i32⟩
  | .hbm, ⟨55, _⟩ => ⟨S8192x5000, .i1⟩
  | .hbm, ⟨56, _⟩ => ⟨S8192x5000, .f32⟩
  | .hbm, ⟨57, _⟩ => ⟨S8192x5000, .f32⟩
  | .hbm, ⟨58, _⟩ => ⟨S_, .f32⟩
  | .hbm, ⟨59, _⟩ => ⟨S8192x5000, .f32⟩
  | .hbm, ⟨60, _⟩ => ⟨S8192x5000, .f32⟩
  | .hbm, ⟨61, _⟩ => ⟨S8192x5000, .f32⟩
  | .hbm, ⟨62, _⟩ => ⟨S8192x5000, .f32⟩
  | .hbm, ⟨63, _⟩ => ⟨S_, .f32⟩
  | .hbm, ⟨64, _⟩ => ⟨S8192x5000, .f32⟩
  | .hbm, ⟨65, _⟩ => ⟨S8192x5000, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_call0_cst : Ref sig .tc := ⟨.hbm, 14, rfl⟩
abbrev main_call0_v1 : Ref sig .tc := ⟨.hbm, 15, rfl⟩
abbrev main_call0_v2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_call1_v0 : Ref sig .tc := ⟨.hbm, 20, rfl⟩
abbrev main_call1_cst : Ref sig .tc := ⟨.hbm, 21, rfl⟩
abbrev main_call1_v1 : Ref sig .tc := ⟨.hbm, 22, rfl⟩
abbrev main_call1_v2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst : Ref sig .tc := ⟨.hbm, 30, rfl⟩
abbrev main_v16 : Ref sig .tc := ⟨.hbm, 31, rfl⟩
abbrev main_v17 : Ref sig .tc := ⟨.hbm, 32, rfl⟩
abbrev main_cst_1 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_4 : Ref sig .tc := ⟨.hbm, 44, rfl⟩
abbrev main_v26 : Ref sig .tc := ⟨.hbm, 45, rfl⟩
abbrev main_v27 : Ref sig .tc := ⟨.hbm, 46, rfl⟩
abbrev main_cst_5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_call3_v0 : Ref sig .tc := ⟨.hbm, 51, rfl⟩
abbrev main_call3_v1 : Ref sig .tc := ⟨.hbm, 52, rfl⟩
abbrev main_call3_v2 : Ref sig .tc := ⟨.hbm, 53, rfl⟩
abbrev main_call3_v3 : Ref sig .tc := ⟨.hbm, 54, rfl⟩
abbrev main_call3_v4 : Ref sig .tc := ⟨.hbm, 55, rfl⟩
abbrev main_v31 : Ref sig .tc := ⟨.hbm, 56, rfl⟩
abbrev main_v32 : Ref sig .tc := ⟨.hbm, 57, rfl⟩
abbrev main_cst_6 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_7 : Ref sig .tc := ⟨.hbm, 63, rfl⟩
abbrev main_v37 : Ref sig .tc := ⟨.hbm, 64, rfl⟩
abbrev main_v38 : Ref sig .tc := ⟨.hbm, 65, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  reducesTo_S8192x512_S8192_d1 : S8192x512.ReducesTo [1] S8192
  h_S_ : 0 < S_.numel
  bcast_S8192x1_S8192x512_0_1 : S8192x1.BroadcastsInDim S8192x512 (![0, 1] : Fin 2 → Fin S8192x512.rank)
  reducesTo_S5000x512_S5000_d1 : S5000x512.ReducesTo [1] S5000
  bcast_S5000_S5000x1_0 : S5000.BroadcastsInDim S5000x1 (![0] : Fin 1 → Fin S5000x1.rank)
  bcast_S5000x1_S5000x512_0_1 : S5000x1.BroadcastsInDim S5000x512 (![0, 1] : Fin 2 → Fin S5000x512.rank)
  transposes_S5000x512_S512x5000_1_0 : S5000x512.Transposes [1, 0] S512x5000
  bcast_S_S8192x5000 : S_.BroadcastsInDim S8192x5000 (![] : Fin 0 → Fin S8192x5000.rank)
  bcast_S8192x1_S8192x5000_0_1 : S8192x1.BroadcastsInDim S8192x5000 (![0, 1] : Fin 2 → Fin S8192x5000.rank)
  bcast_S1x5000_S8192x5000_0_1 : S1x5000.BroadcastsInDim S8192x5000 (![0, 1] : Fin 2 → Fin S8192x5000.rank)
  gather_S100000_S8192x1_S8192_n_0_n_n_0_1_1_wf : GatherDims.WF S100000 S8192x1 S8192 [] [0] [] [0] [] 1 ![1]
  dot_S8192x512_S512x5000_S8192x5000_1_0_0_1_n_n_wf : DotDims.WF S8192x512 S512x5000 S8192x5000 [1] [0] [0] [1] [] []

variable [Facts₀]

def gather_S100000_S8192x1_S8192_n_0_n_n_0_1_1 : GatherDims S100000 S8192x1 S8192 where
  offsetDims := []
  collapsedSliceDims := [0]
  operandBatchingDims := []
  startIndicesBatchingDims := []
  startIndexMap := [0]
  indexVectorDim := 1
  sliceSizes := ![1]
  wf := gather_S100000_S8192x1_S8192_n_0_n_n_0_1_1_wf
def dot_S8192x512_S512x5000_S8192x5000_1_0_0_1_n_n : DotDims S8192x512 S512x5000 S8192x5000 where
  lhsContracting := [1]
  rhsContracting := [0]
  lhsNonContracting := [0]
  rhsNonContracting := [1]
  lhsBatch := []
  rhsBatch := []
  wf := dot_S8192x512_S512x5000_S8192x5000_1_0_0_1_n_n_wf

class Facts : Prop extends Facts₀ where

variable [Facts]
-- ==== Proof.Spec.lean ====
/-
  The additive-angular-margin logits, entry by entry, on the extended reals.

  For a batch x of a rows and a class table w of n rows, both of width b: row i of x and row j of w are each
  divided by their Euclidean length, the cosine c(i, j) is the inner product of the two unit rows, the margin turns
  a cosine into cos(θ + 1/2) = c·cos(1/2) − sin θ·sin(1/2) while that is still decreasing in θ and into a linear
  fallback c − sin(1/2)/2 past it, and the logit at (i, j) is the margin of c(i, j) where j is row i's (remapped)
  label and c(i, j) elsewhere, scaled by 30.  A label that is no column (−1) leaves its whole row at the cosines.

  Also here: the one law that joins the two spellings of "the margin at the labelled column" — a one-hot blend
  h·a + (1 − h)·c against a choice by the bit h.  On the extended reals it needs no finiteness: 0·x = 0 and 1·x = x
  for every x, infinite ones included.
-/
import Idealize.ShloMosaic.Lib.ValueIdx
import Idealize.ShloMosaic.PureOps.Ideal.Laws

noncomputable section

namespace Cert.ArcFace

open Idealize.ShloMosaic Idealize.ShloMosaic.ValueIdx

/-- Entry (p, k) of an [a, b] array divided by the Euclidean length of its row p. -/
def unitRow {a b : ℕ} (x : (⟨2, ![a, b]⟩ : Shape).Idx → EReal) (p : Fin a) (k : Fin b) : EReal :=
  Ideal.div (x (ix2 p k)) (Ideal.sqrt (∑ k' : Fin b, x (ix2 p k') * x (ix2 p k')))

/-- The cosine between row i of x and row j of w: the inner product of the two unit rows. -/
def cosine {a n b : ℕ} (x : (⟨2, ![a, b]⟩ : Shape).Idx → EReal) (w : (⟨2, ![n, b]⟩ : Shape).Idx → EReal)
    (i : Fin a) (j : Fin n) : EReal :=
  ∑ k : Fin b, unitRow x i k * unitRow w j k

/-- The margin on a cosine c: c·cos(1/2) − √(max(1 − c², 0))·sin(1/2) where c > −cos(1/2), else c − sin(1/2)/2
    (the four constants as the single-precision words both programs carry). -/
def margin (c : EReal) : EReal :=
  Scalar.select (Ideal.cmp .ogt c (Ideal.ofBits .f32 0xBF60A940#32))
    (c * Ideal.ofBits .f32 0x3F60A940#32
      - Ideal.sqrt (max (Ideal.ofBits .f32 0x3F800000#32 - c * c) (Ideal.ofBits .f32 0x00000000#32))
        * Ideal.ofBits .f32 0x3EF57744#32)
    (c - Ideal.ofBits .f32 0x3E757744#32)

/-- One logit: the margin of the cosine at the labelled column (`hit`), the cosine elsewhere, times 30. -/
def logit (hit : BitVec 1) (c : EReal) : EReal :=
  Scalar.select hit (margin c) c * Ideal.ofBits .f32 0x41F00000#32

/-- All the logits of a batch of 8192 rows against 5000 classes of width 512, from the remapped labels. -/
def logits (x : (⟨2, ![8192, 512]⟩ : Shape).Idx → EReal) (w : (⟨2, ![5000, 512]⟩ : Shape).Idx → EReal)
    (lab : (⟨1, ![8192]⟩ : Shape).Idx → BitVec 32) : (⟨2, ![8192, 5000]⟩ : Shape).Idx → EReal :=
  fun i => logit (IntOp.cmpi .eq (lab (ix1 (i 0))) (BitVec.ofNat 32 (i 1).val)) (cosine x w (i 0) (i 1))

theorem ofBits_one_f32 : Ideal.ofBits .f32 0x3F800000#32 = 1 := by
  simp [Ideal.ofBits, Ideal.ieee]
  rw [← EReal.coe_mul]
  norm_num

/-- The one-hot blend is the choice: with h the bit read as 0 or 1, h·a + (1 − h)·c is a when the bit is set and c
    when it is not, for all extended reals a and c. -/
theorem blend_eq_select (hit : BitVec 1) (a c : EReal) :
    ((hit.toNat : ℝ) : EReal) * a + (Ideal.ofBits .f32 0x3F800000#32 - ((hit.toNat : ℝ) : EReal)) * c
      = Scalar.select hit a c := by
  rw [ofBits_one_f32]
  by_cases h : hit = 1#1
  · subst h
    rw [select_one]
    have h11 : (1 : EReal) - 1 = 0 := by
      rw [← EReal.coe_one, ← EReal.coe_sub, sub_self, EReal.coe_zero]
    simp [h11]
  · have h0 := eq_zero_of_ne_one h
    subst h0
    rw [select_zero]
    simp

end Cert.ArcFace

end
-- ==== Proof.LibKeepdims.lean ====
/-
  Keepdims forms read at an index, and a lane sum as a plain sum.

  A row-wise reduction with `keepdims=True` leaves a vector [a] that is cast to a column [a, 1] and then broadcast
  across the columns to [a, b]; or, for the other operand of an outer sum, cast to a column [b, 1], transposed to a
  row [1, b] and broadcast down the rows to [a, b]. Read at (p, q) the first is the vector at p and the second the
  vector at q. A `[1, b]` block cast to itself and broadcast down the rows reads its one row at q. And at the
  ideal values a sum along the lanes of an [a, b] array, read at row p, is the plain sum over the row.
  All for any extents.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibKeepdims

open Idealize.ShloMosaic Idealize.ShloMosaic.ValueIdx

variable {α : Type}

/-- A vector [a] as a column [a, 1] broadcast across the columns of [a, b]: at (p, q), the vector at p. -/
theorem column_broadcast_apply {a b : ℕ} (v : (⟨1, ![a]⟩ : Shape).Idx → α)
    (h₁ : (⟨1, ![a]⟩ : Shape).ShapeCasts ⟨2, ![a, 1]⟩) (h₂ : (⟨2, ![a, 1]⟩ : Shape).Broadcasts ⟨2, ![a, b]⟩)
    (p : Fin a) (q : Fin b) :
    broadcastTo ⟨2, ![a, b]⟩ (shapeCast ⟨2, ![a, 1]⟩ v h₁) h₂ (ix2 p q) = v (ix1 p) := by
  refine (broadcastTo_apply _ h₂ (ix2 p q) (ix2 p (0 : Fin 1)) fun ax => ?_).trans
    (shapeCast_apply v h₁ _ _ ?_)
  · match ax with
    | ⟨0, _⟩ =>
      show p.val = if a = 1 then 0 else p.val
      split
      · have := p.isLt; omega
      · rfl
    | ⟨1, _⟩ => rfl
  · rw [Shape.rowMajor_val_one, Shape.rowMajor_val_two]
    show p.val = p.val * 1 + 0
    omega

/-- A vector [b] as a column [b, 1], transposed to a row [1, b] and broadcast down the rows of [a, b]: at (p, q),
    the vector at q. -/
theorem row_of_column_broadcast_apply {a b : ℕ} (v : (⟨1, ![b]⟩ : Shape).Idx → α)
    (h₁ : (⟨1, ![b]⟩ : Shape).ShapeCasts ⟨2, ![b, 1]⟩) (h₃ : (⟨2, ![b, 1]⟩ : Shape).Transposes [1, 0] ⟨2, ![1, b]⟩)
    (h₂ : (⟨2, ![1, b]⟩ : Shape).Broadcasts ⟨2, ![a, b]⟩) (p : Fin a) (q : Fin b) :
    broadcastTo ⟨2, ![a, b]⟩ (transpose ⟨2, ![1, b]⟩ [1, 0] (shapeCast ⟨2, ![b, 1]⟩ v h₁) h₃) h₂ (ix2 p q) = v (ix1 q) := by
  refine (broadcastTo_1b_ab_apply _ h₂ p q).trans ((transpose_ix2_apply _ h₃ (0 : Fin 1) q).trans
    (shapeCast_apply v h₁ _ _ ?_))
  rw [Shape.rowMajor_val_one, Shape.rowMajor_val_two]
  show q.val = q.val * 1 + 0
  omega

/-- A [1, b] block cast to its own shape and broadcast down the rows of [a, b]: at (p, q), its one row at q. -/
theorem row_broadcast_apply {a b : ℕ} (v : (⟨2, ![1, b]⟩ : Shape).Idx → α)
    (h₁ : (⟨2, ![1, b]⟩ : Shape).ShapeCasts ⟨2, ![1, b]⟩) (h₂ : (⟨2, ![1, b]⟩ : Shape).Broadcasts ⟨2, ![a, b]⟩)
    (p : Fin a) (q : Fin b) :
    broadcastTo ⟨2, ![a, b]⟩ (shapeCast ⟨2, ![1, b]⟩ v h₁) h₂ (ix2 p q) = v (ix2 (0 : Fin 1) q) :=
  (broadcastTo_1b_ab_apply _ h₂ p q).trans (congrFun (shapeCast_self v h₁) _)

/-- At the ideal values the sum along the lanes of an [a, b] array from the zero pattern, read at row p, is the
    sum of the row. -/
theorem lane_sum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec (FTy.bits .f32)) = FKind.add.neutral .f32 hφ) (p : Fin a) :
    multiReduction (F := Ideal) .add [1] ⟨1, ![a]⟩ src 0x00000000#32 h hφ hacc (ix1 p) = ∑ k : Fin b, src (ix2 p k) :=
  (Ideal.multiReduction_add_single src _ h hφ hacc (ix1 p)).trans
    (Finset.sum_congr rfl fun k _ => congrArg src
      (funext fun ax => Fin.ext (by match ax with | ⟨0, _⟩ => rfl | ⟨1, _⟩ => rfl)))

end Cert.LibKeepdims

end
-- ==== Proof.KernPay.lean ====
/-
  The two kernel bodies' arithmetic, read one entry at a time on the extended reals.

  The first body takes the class table and divides each of its rows by the row's Euclidean length: the squares of a
  row are summed along the lanes, the sums are set in a column, the root is taken, the column is spread back across
  the lanes and the quotient is taken. Entry (q, k) of the result is entry (q, k) of row q made a unit row. The
  narrowing that follows the quotient changes nothing on the extended reals.

  The second body does the same to its block of 256 batch rows, then multiplies the block by the table it is handed,
  giving up axis 1 of both operands, so that entry (p, q) of the product is the inner product of unit row p of the
  block with row q of the table: a cosine when the table's rows are unit rows. Every later step is pointwise: the
  margin built from that cosine and four constants, the test of row p's label against the column number q, the
  choice between margin and cosine by that test, and the scaling by 30. So entry (p, q) is the logit of that inner
  product, with the margin on the column that row p's label names.

  The one fact about shapes that both bodies need is stated once for any extents: a lane sum set in a column, rooted
  and spread back across the lanes reads, at (p, k), the root of row p's sum.
-/
import proofs.«150023_j21114059227271_1_alg».proof.Proof.Gen.KernelIdeal.Skeleton
import proofs.«150023_j21114059227271_1_alg».proof.Proof.Spec
import proofs.«150023_j21114059227271_1_alg».proof.Proof.LibKeepdims
import Idealize.ShloMosaic.Lib.Pipeline.Value

noncomputable section
namespace Cert.ArcFace.Kern
open Idealize.ShloMosaic Idealize.ShloMosaic.ValueIdx Cert.ArcFace Cert.KernelIdeal Cert.KernelIdeal.Gen

/-- Rows divided by their Euclidean length, as the two bodies spell it: the squares summed along the lanes, the sums
    set in a column, the root taken, the column spread back across the lanes, the quotient taken and narrowed.
    Read at (p, k) this is entry (p, k) of row p made a unit row, for any extents. -/
theorem unit_rows_apply {a b : ℕ} (x : FVec Ideal ⟨2, ![a, b]⟩ .f32)
    (hr : (⟨2, ![a, b]⟩ : Shape).Reduces [1] ⟨1, ![a]⟩)
    (h₁ : (⟨1, ![a]⟩ : Shape).ShapeCasts ⟨2, ![a, 1]⟩)
    (h₂ : (⟨2, ![a, 1]⟩ : Shape).Broadcasts ⟨2, ![a, b]⟩)
    (hlt : FTy.bits .bf16 < FTy.bits .f32) (p : Fin a) (k : Fin b) :
    (truncf .bf16 (divf x (broadcastTo ⟨2, ![a, b]⟩ (sqrt (shapeCast ⟨2, ![a, 1]⟩
      (multiReduction (F := Ideal) .add [1] ⟨1, ![a]⟩ (mulf x x) 0x00000000#32 hr (.inl rfl) rfl) h₁)) h₂)) hlt
        : FVec Ideal ⟨2, ![a, b]⟩ .bf16) (ix2 p k) = unitRow x p k := by
  show Ideal.div (x (ix2 p k)) (Ideal.sqrt (broadcastTo ⟨2, ![a, b]⟩ (shapeCast ⟨2, ![a, 1]⟩
      (multiReduction (F := Ideal) .add [1] ⟨1, ![a]⟩ (mulf x x) 0x00000000#32 hr (.inl rfl) rfl) h₁) h₂ (ix2 p k))) = _
  rw [Cert.LibKeepdims.column_broadcast_apply]
  exact congrArg (fun t => Ideal.div (x (ix2 p k)) (Ideal.sqrt t))
    (Cert.LibKeepdims.lane_sum_apply (mulf x x) hr _ _ p)

/-- The class table's body: entry (q, k) of its payload is entry (q, k) of row q made a unit row. -/
theorem k0_pay1_apply (v0 : Vec Ideal S5000x512 .f32) (q : Fin 5000) (k : Fin 512) :
    k0_pay1 (F := Ideal) v0 (ix2 q k) = unitRow v0 q k := by
  unfold k0_pay1
  exact unit_rows_apply v0 _ _ _ _ q k

/-! ## The cosines: the product that contracts axis 1 of both operands

The four coordinate readings of the two operand indices at result index (p, q) and contraction position c:
the left operand is read at (p, c), the right operand at (q, c). -/

theorem lhs_dot_0 (i : S256x5000.Idx) (c : dot_S256x512_S5000x512_S256x5000_1_1_0_0_n_n.contr.Idx) :
    (dot_S256x512_S5000x512_S256x5000_1_1_0_0_n_n.lhsIdx i c 0).val = (i 0).val := by
  unfold DotDims.lhsIdx
  rw [dif_neg (show ¬(0 : Fin S256x512.rank) ∈ dot_S256x512_S5000x512_S256x5000_1_1_0_0_n_n.lhsBatch by decide),
    dif_pos (show (0 : Fin S256x512.rank) ∈ dot_S256x512_S5000x512_S256x5000_1_1_0_0_n_n.lhsNonContracting by decide)]
  rfl
theorem lhs_dot_1 (i : S256x5000.Idx) (c : dot_S256x512_S5000x512_S256x5000_1_1_0_0_n_n.contr.Idx) :
    (dot_S256x512_S5000x512_S256x5000_1_1_0_0_n_n.lhsIdx i c 1).val = (c ⟨0, by decide⟩).val :=
  dot_S256x512_S5000x512_S256x5000_1_1_0_0_n_n.lhsIdx_val_of_single rfl i c
theorem rhs_dot_0 (i : S256x5000.Idx) (c : dot_S256x512_S5000x512_S256x5000_1_1_0_0_n_n.contr.Idx) :
    (dot_S256x512_S5000x512_S256x5000_1_1_0_0_n_n.rhsIdx i c 0).val = (i 1).val := by
  unfold DotDims.rhsIdx
  rw [dif_neg (show ¬(0 : Fin S5000x512.rank) ∈ dot_S256x512_S5000x512_S256x5000_1_1_0_0_n_n.rhsBatch by decide),
    dif_pos (show (0 : Fin S5000x512.rank) ∈ dot_S256x512_S5000x512_S256x5000_1_1_0_0_n_n.rhsNonContracting by decide)]
  rfl
theorem rhs_dot_1 (i : S256x5000.Idx) (c : dot_S256x512_S5000x512_S256x5000_1_1_0_0_n_n.contr.Idx) :
    (dot_S256x512_S5000x512_S256x5000_1_1_0_0_n_n.rhsIdx i c 1).val = (c ⟨0, by decide⟩).val :=
  dot_S256x512_S5000x512_S256x5000_1_1_0_0_n_n.rhsIdx_val_of_single rfl i c

/-- The product onto a zero accumulator, read at (p, q): the inner product of row p of the left operand with row q
    of the right one. -/
theorem cosines_apply (l : FVec Ideal S256x512 .bf16) (w : FVec Ideal S5000x512 .bf16) (p : Fin 256) (q : Fin 5000) :
    matmul dot_S256x512_S5000x512_S256x5000_1_1_0_0_n_n none l w (constant S256x5000 .f32 0x00000000#32) (ix2 p q)
      = ∑ k : Fin 512, l (ix2 p k) * w (ix2 q k) := by
  refine (Ideal.matmul_constant_zero_apply dot_S256x512_S5000x512_S256x5000_1_1_0_0_n_n none l w (ix2 p q)).trans ?_
  rw [← Equiv.sum_comp (contrEquiv1 dot_S256x512_S5000x512_S256x5000_1_1_0_0_n_n 512 rfl rfl).symm]
  refine Finset.sum_congr rfl fun k _ => ?_
  have hk := contrEquiv1_symm_val dot_S256x512_S5000x512_S256x5000_1_1_0_0_n_n 512 rfl rfl k
  have el : dot_S256x512_S5000x512_S256x5000_1_1_0_0_n_n.lhsIdx (ix2 p q) ((contrEquiv1 dot_S256x512_S5000x512_S256x5000_1_1_0_0_n_n 512 rfl rfl).symm k) = ix2 p k :=
    funext fun a => Fin.ext (by
      match a with
      | ⟨0, _⟩ => exact lhs_dot_0 _ _
      | ⟨1, _⟩ => exact (lhs_dot_1 _ _).trans hk)
  have er : dot_S256x512_S5000x512_S256x5000_1_1_0_0_n_n.rhsIdx (ix2 p q) ((contrEquiv1 dot_S256x512_S5000x512_S256x5000_1_1_0_0_n_n 512 rfl rfl).symm k) = ix2 q k :=
    funext fun a => Fin.ext (by
      match a with
      | ⟨0, _⟩ => exact rhs_dot_0 _ _
      | ⟨1, _⟩ => exact (rhs_dot_1 _ _).trans hk)
  rw [el, er]

/-! ## The labelled column -/

/-- The block's label column spread across the 5000 columns: at (p, q), row p's label. -/
theorem label_column_apply (r : IVec S256x1 32) (p : Fin 256) (q : Fin 5000) :
    broadcastTo S256x5000 (shapeCast S256x1 r shapeCasts_S256x1_S256x1) broadcasts_S256x1_S256x5000 (ix2 p q)
      = r (ix2 p (0 : Fin 1)) := by
  rw [shapeCast_self]
  refine broadcastTo_apply r _ (ix2 p q) (ix2 p (0 : Fin 1)) fun ax => ?_
  match ax with
  | ⟨0, _⟩ => rfl
  | ⟨1, _⟩ => rfl

/-- The column counter: at (p, q), the word of q. -/
theorem column_counter_apply (p : Fin 256) (q : Fin 5000) :
    iota .tc S256x5000 32 [1] iota_S256x5000_d1_w32 (ix2 p q) = BitVec.ofNat 32 q.val :=
  iota_single_apply .tc S256x5000 32 1 iota_S256x5000_d1_w32 (ix2 p q)

/-! ## The batch block's body -/

/-- The batch block's rows made unit rows, as the second body spells it, read at (p, k). -/
theorem batch_unit_rows_apply (x : Vec Ideal S256x512 .f32) (p : Fin 256) (k : Fin 512) :
    (truncf .bf16 (divf x (broadcastTo S256x512 (sqrt (shapeCast S256x1
      (multiReduction (F := Ideal) .add [1] S256 (mulf x x) 0x00000000#32 reduces_S256x512_S256 (.inl rfl) rfl)
        shapeCasts_S256_S256x1)) broadcasts_S256x1_S256x512)) bitsLt_bf16_f32
          : FVec Ideal S256x512 .bf16) (ix2 p k) = unitRow x p k :=
  unit_rows_apply x _ _ _ _ p k

/-- The batch block's body: entry (p, q) of its payload is the logit of the inner product of row p of the block, made
    a unit row, with row q of the table it is handed, the margin falling on the column that row p's label names. -/
theorem k1_pay1_apply (x : Vec Ideal S256x512 .f32) (wn : Vec Ideal S5000x512 .bf16) (r : Vec Ideal S256x1 .i32)
    (p : Fin 256) (q : Fin 5000) :
    k1_pay1 (F := Ideal) x wn r (ix2 p q)
      = logit (IntOp.cmpi .eq (r (ix2 p (0 : Fin 1))) (BitVec.ofNat 32 q.val)) (∑ k : Fin 512, unitRow x p k * wn (ix2 q k)) := by
  unfold k1_pay1
  show logit
      (IntOp.cmpi .eq
        (broadcastTo S256x5000 (shapeCast S256x1 r shapeCasts_S256x1_S256x1) broadcasts_S256x1_S256x5000 (ix2 p q))
        (iota .tc S256x5000 32 [1] iota_S256x5000_d1_w32 (ix2 p q)))
      (matmul dot_S256x512_S5000x512_S256x5000_1_1_0_0_n_n none
        (truncf .bf16 (divf x (broadcastTo S256x512 (sqrt (shapeCast S256x1
          (multiReduction (F := Ideal) .add [1] S256 (mulf x x) 0x00000000#32 reduces_S256x512_S256 (.inl rfl) rfl)
            shapeCasts_S256_S256x1)) broadcasts_S256x1_S256x512)) bitsLt_bf16_f32)
        (shapeCast S5000x512 wn shapeCasts_S5000x512_S5000x512)
        (constant S256x5000 .f32 0x00000000#32) (ix2 p q)) = _
  rw [label_column_apply r p q, column_counter_apply p q, shapeCast_self, cosines_apply]
  exact congrArg (logit (IntOp.cmpi .eq (r (ix2 p (0 : Fin 1))) (BitVec.ofNat 32 q.val)))
    (Finset.sum_congr rfl fun k _ => congrArg (· * wn (ix2 q k)) (batch_unit_rows_apply x p k))

end Cert.ArcFace.Kern
end
-- ==== Proof.KValue.lean ====
/-
  What the idealized kernel's run leaves in its two results, as functions of the four argument arrays.

  The run's boundary contents are a fold: the host operations before the first region, then each region's arrays at
  what its write-backs leave.  Read back through the fold:
  * the host operations leave the remapped labels (a negative label wrapped by 100000, the class map read there) in one
    array, and the same labels as a column [8192, 1] in the array the second region's first window reads; no region
    writes the labels' array afterwards;
  * the first region has one grid point whose blocks are the whole class table and the whole normalized table, so the
    normalized table ends holding, at (q, k), entry (q, k) of row q of the class table made a unit row;
  * the second region's point t reads rows 256·t … 256·t + 255 of the label column and of the batch, and the whole
    normalized table, and writes back rows 256·t … 256·t + 255 of the result; a unit row of the batch block is the
    unit row of the batch at the same row (it depends on that row only), so what point t writes back is block t of ONE
    function of the arguments: the logits.  The 32 blocks tile the result array (row i lies in block i / 256), so the
    array ends holding the logits.
-/
import proofs.«150023_j21114059227271_1_alg».proof.Proof.KRun
import proofs.«150023_j21114059227271_1_alg».proof.Proof.Spec
import proofs.«150023_j21114059227271_1_alg».proof.Proof.KernPay
import Idealize.ShloMosaic.Lib.StableHlo.Run
import Idealize.ShloMosaic.Lib.Pipeline.Value

set_option maxRecDepth 16384

noncomputable section

namespace Cert.ArcFace.KVal

open Idealize.ShloMosaic Idealize.ShloMosaic.TcCoe Idealize.ShloMosaic.ValueIdx Idealize.SL.Sem Idealize.ShloMosaic.StableHlo
open Cert.ArcFace Cert.ArcFace.Kern Cert.KernelIdeal Cert.KernelIdeal.Gen

variable (m : (ℓ : Loc nD τ sig) → Buf (Elt Ideal) ℓ) (ρ : Dev nD → PrngReg)

/-- The remapped labels as the host operations before the first region compute them: a negative label is wrapped
    by 100000 and the class map is read there. -/
def remap (x1 : IVec S8192 32) (x3 : IVec S100000 32) : IVec S8192 32 :=
  Host.gather gather_S100000_S8192x1_S8192_n_0_n_n_0_1_1 x3
    (broadcastInDim S8192x1 ![0] bcast_S8192_S8192x1_0
      (select (cmpi .slt x1 (broadcastInDim S8192 ![] bcast_S_S8192 (constantI S_ 32 0#32)))
        (addi x1 (broadcastInDim S8192 ![] bcast_S_S8192 (constantI S_ 32 100000#32))) x1))

/-- The four argument arrays of core c as launched, at their literal types. -/
abbrev xs (c : Dev nD) : S8192x512.Idx → EReal := m ((c.tc : Thread nD τ).loc main_arg0)
abbrev labs (c : Dev nD) : IVec S8192 32 := m ((c.tc : Thread nD τ).loc main_arg1)
abbrev ws (c : Dev nD) : S5000x512.Idx → EReal := m ((c.tc : Thread nD τ).loc main_arg2)
abbrev cmap (c : Dev nD) : IVec S100000 32 := m ((c.tc : Thread nD τ).loc main_arg3)

/-! ## What the host operations leave when the first region is entered -/

theorem W1_v6 (c : Dev nD) : W1 m ρ c (Proc.devRef .tc main_v6) = remap (labs m c) (cmap m c) := by
  show StableHlo.after hostOps0 (W0 m ρ c) (Proc.devRef .tc main_v6) = _
  after_results
  rfl

theorem W1_v7 (c : Dev nD) :
    W1 m ρ c (Proc.devRef .tc main_v7) = shapeCast S8192x1 (remap (labs m c) (cmap m c)) shapeCasts_S8192_S8192x1 := by
  show StableHlo.after hostOps0 (W0 m ρ c) (Proc.devRef .tc main_v7) = _
  after_results
  rfl

theorem W1_arg0 (c : Dev nD) : W1 m ρ c (Proc.devRef .tc main_arg0) = xs m c := by
  show StableHlo.after hostOps0 (W0 m ρ c) (Proc.devRef .tc main_arg0) = _
  after_results

theorem W1_arg2 (c : Dev nD) : W1 m ρ c (Proc.devRef .tc main_arg2) = ws m c := by
  show StableHlo.after hostOps0 (W0 m ρ c) (Proc.devRef .tc main_arg2) = _
  after_results

/-- The label column the second region reads, at row i: the remapped label of row i. -/
theorem W1_v7_apply (c : Dev nD) (i : Fin 8192) :
    (W1 m ρ c (Proc.devRef .tc main_v7) : S8192x1.Idx → BitVec 32) (ix2 i (0 : Fin 1)) = remap (labs m c) (cmap m c) (ix1 i) := by
  rw [W1_v7]
  refine shapeCast_apply _ shapeCasts_S8192_S8192x1 _ _ ?_
  rw [Shape.rowMajor_val_one, Shape.rowMajor_val_two]
  show i.val = i.val * 1 + 0
  omega

/-! ## The first region: the class table's rows as unit rows -/

theorem hz : (![0, 0] : Fin 2 → Nat) = fun _ => 0 := funext fun a => by fin_cases a <;> rfl

/-- The class table with each row divided by its length. -/
def unitRows (w : S5000x512.Idx → EReal) : S5000x512.Idx → EReal := fun i => unitRow w (i 0) (i 1)

theorem idx0 : ∀ t : Fin cfg0.N, win0_0.index t (0 : Fin 2) = 0 ∧ win0_0.index t (1 : Fin 2) = 0
    ∧ win0_1.index t (0 : Fin 2) = 0 ∧ win0_1.index t (1 : Fin 2) = 0 :=
  (by decide +kernel : ∀ t : Fin grid0.N, _)

/-- The one block of the class table IS the table. -/
theorem iblk0_eq (c : Dev nD) (t : Fin cfg0.N) : (iblk0 (V1 m ρ) c 0 t : S5000x512.Idx → EReal) = ws m c := by
  funext j
  show V1 m ρ c main_arg2 (((cfg0.win 0).blk t).view.emb j) = ws m c j
  rw [show V1 m ρ c main_arg2 = ws m c from W1_arg2 m ρ c]
  refine congrArg (ws m c) ?_
  obtain ⟨e0, e1, -, -⟩ := idx0 t
  funext a; apply Fin.ext
  match a with
  | ⟨0, _⟩ => show win0_0.index t (0 : Fin 2) * 5000 + 1 * (j 0).val = (j 0).val; omega
  | ⟨1, _⟩ => show win0_0.index t (1 : Fin 2) * 512 + 1 * (j 1).val = (j 1).val; omega

theorem flushed0 (c : Dev nD) (t : Fin cfg0.N) :
    (dat0 (V1 m ρ) c).flushed 1 t = ((cfg0.win 1).blk t).view.read (Elt Ideal) (unitRows (ws m c)) := by
  show (cfg0.win 1).cut (grid0.coords t) ((dat0 (V1 m ρ) c).after 1 t) = _
  rw [after0_1]
  unfold out0_1
  rw [View.canon_unit_zero hz]
  simp only [View.ld_unit_zero (S := S5000x512) hz]
  funext j
  obtain ⟨q, k, rfl⟩ : ∃ (q : Fin 5000) (k : Fin 512), j = ix2 q k := ⟨j 0, j 1, eq_ix2 j⟩
  show k0_pay1 (F := Ideal) (iblk0 (V1 m ρ) c 0 t) (ix2 q k) = unitRows (ws m c) (((cfg0.win 1).blk t).view.emb (ix2 q k))
  refine (k0_pay1_apply _ q k).trans ?_
  rw [iblk0_eq]
  obtain ⟨-, -, e0, e1⟩ := idx0 t
  have he : ((cfg0.win 1).blk t).view.emb (ix2 q k) = ix2 q k := by
    funext a; apply Fin.ext
    match a with
    | ⟨0, _⟩ => show win0_1.index t (0 : Fin 2) * 5000 + 1 * q.val = q.val; omega
    | ⟨1, _⟩ => show win0_1.index t (1 : Fin 2) * 512 + 1 * k.val = k.val; omega
  rw [he]
  rfl

theorem mem_blk0 (t : Fin cfg0.N) (i : S5000x512.Idx) :
    i ∈ ((cfg0.win 1).blk t).view.set ↔ ∀ a : Fin 2, win0_1.index t a * S5000x512.size a ≤ (i a).val ∧ (i a).val < win0_1.index t a * S5000x512.size a + S5000x512.size a := by
  show i ∈ ((View.whole main_v8).slice (win0_1.rect t)).set ↔ _
  rw [View.set_slice_whole, Rect.mem_set_unit]
  exact Iff.rfl

/-- After the first region the normalized table's array holds the unit rows of the class table. -/
theorem V2_v8 (c : Dev nD) : (V2 m ρ c main_v8 : S5000x512.Idx → EReal) = unitRows (ws m c) := by
  refine (W2_arr m ρ c 1).trans ?_
  refine (dat0 (V1 m ρ) c).arrAt_eq_of_cover 1 (unitRows (ws m c)) (fun t _ => flushed0 m ρ c t) (fun i => ?_)
  refine ⟨t0_0, flush0_1 t0_0, ?_⟩
  rw [mem_blk0]
  obtain ⟨-, -, e0, e1⟩ := idx0 t0_0
  intro a
  match a with
  | ⟨0, _⟩ => show win0_1.index t0_0 (0 : Fin 2) * 5000 ≤ (i 0).val ∧ (i 0).val < win0_1.index t0_0 (0 : Fin 2) * 5000 + 5000; have h0 : (i 0).val < 5000 := (i 0).isLt; omega
  | ⟨1, _⟩ => show win0_1.index t0_0 (1 : Fin 2) * 512 ≤ (i 1).val ∧ (i 1).val < win0_1.index t0_0 (1 : Fin 2) * 512 + 512; have h1 : (i 1).val < 512 := (i 1).isLt; omega

/-! ## The second region: block t of the logits -/

theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 ∧ t.val < 32 :=
  (by decide +kernel : ∀ t : Fin grid1.N, _)

/-- The three input blocks of point t, at their literal types. -/
abbrev labBlk (c : Dev nD) (t : Fin cfg1.N) : S256x1.Idx → BitVec 32 := iblk1 (V2 m ρ) c 0 t
abbrev xBlk (c : Dev nD) (t : Fin cfg1.N) : S256x512.Idx → EReal := iblk1 (V2 m ρ) c 1 t
abbrev wnBlk (c : Dev nD) (t : Fin cfg1.N) : S5000x512.Idx → EReal := iblk1 (V2 m ρ) c 2 t

/-- Row p of the label block at point t is the remapped label of row 256·t + p. -/
theorem labBlk_apply (c : Dev nD) (t : Fin cfg1.N) (p : Fin 256) (P : Fin 8192) (hP : P.val = t.val * 256 + p.val) :
    labBlk m ρ c t (ix2 p (0 : Fin 1)) = remap (labs m c) (cmap m c) (ix1 P) := by
  show V2 m ρ c main_v7 (((cfg1.win 0).blk t).view.emb (ix2 p (0 : Fin 1))) = _
  rw [show V2 m ρ c main_v7 = W1 m ρ c (Proc.devRef .tc main_v7) from W2_of_ne m ρ c main_v7 (by decide)]
  refine Eq.trans (congrArg _ ?_) (W1_v7_apply m ρ c P)
  obtain ⟨e0, e1, -⟩ := idx1 t
  funext a; apply Fin.ext
  match a with
  | ⟨0, _⟩ => show win1_0.index t (0 : Fin 2) * 256 + 1 * p.val = P.val; omega
  | ⟨1, _⟩ => show win1_0.index t (1 : Fin 2) * 1 + 1 * 0 = 0; omega

/-- Row p of the batch block at point t is row 256·t + p of the batch. -/
theorem xBlk_apply (c : Dev nD) (t : Fin cfg1.N) (p : Fin 256) (P : Fin 8192) (hP : P.val = t.val * 256 + p.val) (k : Fin 512) :
    xBlk m ρ c t (ix2 p k) = xs m c (ix2 P k) := by
  show V2 m ρ c main_arg0 (((cfg1.win 1).blk t).view.emb (ix2 p k)) = _
  rw [show V2 m ρ c main_arg0 = xs m c from (W2_of_ne m ρ c main_arg0 (by decide)).trans (W1_arg0 m ρ c)]
  refine congrArg (xs m c) ?_
  obtain ⟨-, -, e0, e1, -⟩ := idx1 t
  funext a; apply Fin.ext
  match a with
  | ⟨0, _⟩ => show win1_1.index t (0 : Fin 2) * 256 + 1 * p.val = P.val; omega
  | ⟨1, _⟩ => show win1_1.index t (1 : Fin 2) * 512 + 1 * k.val = k.val; omega

/-- The table block at every point is the whole table of unit rows. -/
theorem wnBlk_eq (c : Dev nD) (t : Fin cfg1.N) : wnBlk m ρ c t = unitRows (ws m c) := by
  funext j
  show V2 m ρ c main_v8 (((cfg1.win 2).blk t).view.emb j) = _
  rw [V2_v8]
  refine congrArg (unitRows (ws m c)) ?_
  obtain ⟨-, -, -, -, e0, e1, -⟩ := idx1 t
  funext a; apply Fin.ext
  match a with
  | ⟨0, _⟩ => show win1_2.index t (0 : Fin 2) * 5000 + 1 * (j 0).val = (j 0).val; omega
  | ⟨1, _⟩ => show win1_2.index t (1 : Fin 2) * 512 + 1 * (j 1).val = (j 1).val; omega

/-- A unit row depends on its row only. -/
theorem unitRow_congr {a a' b : ℕ} (x : (⟨2, ![a, b]⟩ : Shape).Idx → EReal) (X : (⟨2, ![a', b]⟩ : Shape).Idx → EReal)
    (p : Fin a) (P : Fin a') (h : ∀ k, x (ix2 p k) = X (ix2 P k)) (k : Fin b) : unitRow x p k = unitRow X P k := by
  unfold unitRow
  rw [h k]
  refine congrArg (fun s => Ideal.div (X (ix2 P k)) (Ideal.sqrt s)) (Finset.sum_congr rfl fun k' _ => ?_)
  rw [h k']

theorem flushed1 (c : Dev nD) (t : Fin cfg1.N) :
    (dat1 (V2 m ρ) c).flushed 3 t
      = ((cfg1.win 3).blk t).view.read (Elt Ideal) (logits (xs m c) (ws m c) (remap (labs m c) (cmap m c))) := by
  show (cfg1.win 3).cut (grid1.coords t) ((dat1 (V2 m ρ) c).after 3 t) = _
  rw [after1_3]
  unfold out1_3
  rw [View.canon_unit_zero hz]
  simp only [View.ld_unit_zero (S := S256x512) hz, View.ld_unit_zero (S := S5000x512) hz, View.ld_unit_zero (S := S256x1) hz]
  funext j
  obtain ⟨p, q, rfl⟩ : ∃ (p : Fin 256) (q : Fin 5000), j = ix2 p q := ⟨j 0, j 1, eq_ix2 j⟩
  obtain ⟨-, -, -, -, -, -, e0, e1, ht⟩ := idx1 t
  have hp : p.val < 256 := p.isLt
  let P : Fin 8192 := ⟨t.val * 256 + p.val, by omega⟩
  have he : ((cfg1.win 3).blk t).view.emb (ix2 p q) = ix2 P q := by
    funext a; apply Fin.ext
    match a with
    | ⟨0, _⟩ => show win1_3.index t (0 : Fin 2) * 256 + 1 * p.val = t.val * 256 + p.val; omega
    | ⟨1, _⟩ => show win1_3.index t (1 : Fin 2) * 5000 + 1 * q.val = q.val; omega
  show k1_pay1 (F := Ideal) (xBlk m ρ c t) (wnBlk m ρ c t) (labBlk m ρ c t) (ix2 p q)
    = logits (xs m c) (ws m c) (remap (labs m c) (cmap m c)) (((cfg1.win 3).blk t).view.emb (ix2 p q))
  rw [he]
  refine (k1_pay1_apply _ _ _ p q).trans ?_
  rw [labBlk_apply m ρ c t p P rfl, wnBlk_eq]
  show logit _ _ = logit _ (cosine (xs m c) (ws m c) P q)
  refine congrArg (logit _) (Finset.sum_congr rfl fun k _ => ?_)
  rw [unitRow_congr (xBlk m ρ c t) (xs m c) p P (fun k' => xBlk_apply m ρ c t p P rfl k') k]
  rfl

theorem mem_blk1 (t : Fin cfg1.N) (i : S8192x5000.Idx) :
    i ∈ ((cfg1.win 3).blk t).view.set ↔ ∀ a : Fin 2, win1_3.index t a * S256x5000.size a ≤ (i a).val ∧ (i a).val < win1_3.index t a * S256x5000.size a + S256x5000.size a := by
  show i ∈ ((View.whole main_v9).slice (win1_3.rect t)).set ↔ _
  rw [View.set_slice_whole, Rect.mem_set_unit]
  exact Iff.rfl

/-- After the second region the result array holds the logits. -/
theorem V3_v9 (c : Dev nD) :
    (W3 m ρ c (Proc.devRef .tc main_v9) : S8192x5000.Idx → EReal) = logits (xs m c) (ws m c) (remap (labs m c) (cmap m c)) := by
  refine (W3_arr m ρ c 3).trans ?_
  refine (dat1 (V2 m ρ) c).arrAt_eq_of_cover 3 _ (fun t _ => flushed1 m ρ c t) (fun i => ?_)
  have h0 : (i 0).val < 8192 := (i 0).isLt
  have h1 : (i 1).val < 5000 := (i 1).isLt
  have hN : grid1.N = 32 := N_1
  let t : Fin cfg1.N := ⟨(i 0).val / 256, by show _ < grid1.N; omega⟩
  refine ⟨t, flush1_3 t, ?_⟩
  rw [mem_blk1]
  obtain ⟨-, -, -, -, -, -, e0, e1, -⟩ := idx1 t
  have ht : t.val = (i 0).val / 256 := rfl
  intro a
  match a with
  | ⟨0, _⟩ => show win1_3.index t (0 : Fin 2) * 256 ≤ (i 0).val ∧ (i 0).val < win1_3.index t (0 : Fin 2) * 256 + 256; omega
  | ⟨1, _⟩ => show win1_3.index t (1 : Fin 2) * 5000 ≤ (i 1).val ∧ (i 1).val < win1_3.index t (1 : Fin 2) * 5000 + 5000; omega

/-- The remapped labels' array is never written after the host operations. -/
theorem V3_v6 (c : Dev nD) : W3 m ρ c (Proc.devRef .tc main_v6) = remap (labs m c) (cmap m c) :=
  (W3_of_ne m ρ c main_v6 (by decide)).trans ((W2_of_ne m ρ c main_v6 (by decide)).trans (W1_v6 m ρ c))

/-! ## The run, read -/

/-- Every weakly fair execution of the idealized kernel ends with the logits in its first result, the remapped
    labels in its second, and the arguments as launched. -/
theorem run : θ_run defs (onTc (τ := τ) (main (F := Ideal))) ⟨m, fun _ => 0, ρ⟩ (fun r => ∀ c : Dev nD,
      r.2.mem ((c.tc : Thread nD τ).loc main_v9) = logits (xs m c) (ws m c) (remap (labs m c) (cmap m c))
      ∧ r.2.mem ((c.tc : Thread nD τ).loc main_v6) = remap (labs m c) (cmap m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (V3_v9 m ρ c), (h c).2.1.trans (V3_v6 m ρ c), (h c).2.2⟩)
    (Cert.KernelIdeal.Named.run_named m ρ)

end Cert.ArcFace.KVal
end
-- ==== Proof.RefLogits.lean ====
/-
  The reference program computes the additive-angular-margin logits of the specification, entry by entry.

  Read one stage at a time, on the extended reals where every operation is exact:
  * a row of the batch (and a row of the class table) divided by the square root of the sum of its squares is the
    unit row of the specification: the sum starts from the zero word, which is 0, and 0 + s = s;
  * the contraction of the unit batch rows against the transposed unit class rows over the shared axis of width 512
    is, at (i, j), the sum over k of unit row i of the batch at k times unit row j of the table at k: the cosine;
  * the choice between c·cos(1/2) − √(max(1 − c², 0))·sin(1/2) and c − sin(1/2)/2 by the test c > −cos(1/2), with
    every constant a scalar word spread over the whole array, is the margin of c at each entry;
  * the comparison of the remapped label of row i with the column number j, read as a number, is the bit's value
    0 or 1 as a real;
  * the blend h·(margin c) + (1 − h)·c times 30 is then the logit, by the law that a one-hot blend is a choice by the
    bit, which holds for all extended reals.
  The remapped labels themselves (a gather) are kept as they are on both sides.
-/
import proofs.«150023_j21114059227271_1_alg».proof.Proof.Gen.ReferenceIdeal.Read
import proofs.«150023_j21114059227271_1_alg».proof.Proof.Spec

noncomputable section
namespace Cert.ArcFace.Ref
open Idealize.ShloMosaic Idealize.ShloMosaic.ValueIdx Cert.ArcFace Cert.ReferenceIdeal Cert.ReferenceIdeal.Read

theorem v9_at (x0 : (⟨S8192x512, .f32⟩ : BufTy).Contents (Elt Ideal)) (i : Fin 8192) (k : Fin 512) :
    val_main_v9 (F := Ideal) x0 (ix2 i k) = unitRow x0 i k := by
  rw [val_main_v9_apply, val_main_v8_apply, val_main_v7_apply, val_main_call0_v2_apply,
    val_main_call0_v1_apply, val_main_call0_cst_apply]
  have hidx : ∀ k' : Fin 512,
      idx_main_call0_v1 (idx_main_call0_v2 (idx_main_v8 (ix2 i k))) k' = ix2 i k' :=
    fun k' => funext fun a => Fin.ext (by match a with | ⟨0, _⟩ => rfl | ⟨1, _⟩ => rfl)
  simp only [hidx, val_main_call0_v0_apply]
  show Ideal.div _ (Ideal.sqrt (Ideal.ofBits .f32 0x00000000#32 + _)) = _
  rw [Ideal.ofBits_zero_f32, zero_add]
  rfl

theorem v12_at (x2 : (⟨S5000x512, .f32⟩ : BufTy).Contents (Elt Ideal)) (j : Fin 5000) (k : Fin 512) :
    val_main_v12 (F := Ideal) x2 (ix2 j k) = unitRow x2 j k := by
  rw [val_main_v12_apply, val_main_v11_apply, val_main_v10_apply, val_main_call1_v2_apply,
    val_main_call1_v1_apply, val_main_call1_cst_apply]
  have hidx : ∀ k' : Fin 512,
      idx_main_call1_v1 (idx_main_call1_v2 (idx_main_v11 (ix2 j k))) k' = ix2 j k' :=
    fun k' => funext fun a => Fin.ext (by match a with | ⟨0, _⟩ => rfl | ⟨1, _⟩ => rfl)
  simp only [hidx, val_main_call1_v0_apply]
  show Ideal.div _ (Ideal.sqrt (Ideal.ofBits .f32 0x00000000#32 + _)) = _
  rw [Ideal.ofBits_zero_f32, zero_add]
  rfl

theorem v14_at (x0 : (⟨S8192x512, .f32⟩ : BufTy).Contents (Elt Ideal))
    (x2 : (⟨S5000x512, .f32⟩ : BufTy).Contents (Elt Ideal)) (i : Fin 8192) (j : Fin 5000) :
    val_main_v14 (F := Ideal) x0 x2 (ix2 i j) = cosine x0 x2 i j := by
  rw [val_main_v14_apply]
  unfold cosine
  refine Finset.sum_congr rfl fun k _ => ?_
  rw [val_main_v13_apply]
  have hl : lidx_main_v14 (ix2 i j) k = ix2 i k :=
    funext fun a => Fin.ext (by match a with | ⟨0, _⟩ => rfl | ⟨1, _⟩ => rfl)
  have hr : idx_main_v13 (ridx_main_v14 (ix2 i j) k) = ix2 j k :=
    funext fun a => Fin.ext (by match a with | ⟨0, _⟩ => rfl | ⟨1, _⟩ => rfl)
  rw [hl, hr, v9_at, v12_at]

theorem v30_at (x0 : (⟨S8192x512, .f32⟩ : BufTy).Contents (Elt Ideal))
    (x2 : (⟨S5000x512, .f32⟩ : BufTy).Contents (Elt Ideal)) (i : S8192x5000.Idx) :
    val_main_v30 (F := Ideal) x0 x2 i = margin (val_main_v14 (F := Ideal) x0 x2 i) := by
  rw [val_main_v30_apply, val_main_v27_apply, val_main_v25_apply, val_main_v29_apply,
    val_main_v22_apply, val_main_v24_apply, val_main_v20_apply, val_main_v19_apply,
    val_main_v17_apply, val_main_v15_apply, val_main_v16_apply, val_main_v18_apply,
    val_main_v21_apply, val_main_v23_apply, val_main_v26_apply, val_main_v28_apply,
    val_main_cst_apply, val_main_cst_1_apply, val_main_cst_2_apply, val_main_cst_3_apply,
    val_main_cst_4_apply, val_main_cst_5_apply]
  rfl

theorem v31_at (x1 : (⟨S8192, .i32⟩ : BufTy).Contents (Elt Ideal))
    (x3 : (⟨S100000, .i32⟩ : BufTy).Contents (Elt Ideal)) (i : Fin 8192) (j : Fin 5000) :
    val_main_v31 (F := Ideal) x1 x3 (ix2 i j)
      = (((IntOp.cmpi .eq (val_main_v6 (F := Ideal) x1 x3 (ix1 i)) (BitVec.ofNat 32 j.val)).toNat : ℝ) : EReal) := by
  rw [val_main_v31_apply, val_main_call3_v4_apply, val_main_call3_v2_apply, val_main_call3_v0_apply,
    val_main_call3_v3_apply, val_main_call3_v1_apply]
  have h : idx_main_call3_v0 (idx_main_call3_v2 (ix2 i j)) = ix1 i :=
    funext fun a => Fin.ext (by match a with | ⟨0, _⟩ => rfl)
  rw [h]
  rfl

theorem ref_logits (x0 : (⟨S8192x512, .f32⟩ : BufTy).Contents (Elt Ideal)) (x1 : (⟨S8192, .i32⟩ : BufTy).Contents (Elt Ideal))
    (x2 : (⟨S5000x512, .f32⟩ : BufTy).Contents (Elt Ideal)) (x3 : (⟨S100000, .i32⟩ : BufTy).Contents (Elt Ideal)) :
    val_main_v38 (F := Ideal) x0 x1 x2 x3 = logits x0 x2 (val_main_v6 (F := Ideal) x1 x3) := by
  funext i
  obtain ⟨p, q, rfl⟩ : ∃ p q, i = ix2 p q := ⟨i 0, i 1, eq_ix2 i⟩
  rw [val_main_v38_apply, val_main_v36_apply, val_main_v32_apply, val_main_v35_apply,
    val_main_v34_apply, val_main_v33_apply, val_main_cst_6_apply, val_main_v37_apply,
    val_main_cst_7_apply, v30_at, v31_at, v14_at]
  show (_ * margin (cosine x0 x2 p q) + (Ideal.ofBits .f32 0x3F800000#32 - _) * cosine x0 x2 p q)
      * Ideal.ofBits .f32 0x41F00000#32 = _
  rw [blend_eq_select]
  rfl

end Cert.ArcFace.Ref
end
-- ==== Proof.lean ====
/-
  The sampled additive-angular-margin layer: a kernel of two launches against its plain array reference.

  Both programs remap the labels through the class map (the same host operations), normalize the rows of the batch
  and of the class table to unit length, take the cosines (the inner products of unit rows), and apply the margin
  cos(θ + 1/2) — with its linear fallback — at the column each row's remapped label names, scaling by 30.
  The kernel normalizes the class table once in a first launch, and in a second launch, 256 batch rows at a time,
  normalizes the block, multiplies it by the normalized table, builds the margin and CHOOSES margin or cosine by
  comparing the label with the column number.  The reference BLENDS them with a one-hot row: h·margin + (1 − h)·cosine.
  On the extended reals the two are one function: every step is exact there, a change of float format is the identity,
  the kernel's matrix product and the reference's contraction are the same sums, and the blend by a bit h ∈ {0, 1} is the choice by h for ALL
  extended reals (0·x = 0 and 1·x = x also at the infinities), so the precondition is never opened.

  The three frames: the word-level kernel's and the idealized kernel's are the generated frame certificates; the
  reference's is its run with the results dropped.  The idealization rewrote nothing, so its claim is trivial.
  The value claim: the idealized kernel's run read back to "the logits, and the remapped labels" of the arguments
  (Proof/KValue.lean over Proof/KernPay.lean), the reference's run read to the same function (Proof/RefLogits.lean).
-/
import proofs.«150023_j21114059227271_1_alg».proof.Defs
import proofs.«150023_j21114059227271_1_alg».proof.Proof.Gen.Kernel
import proofs.«150023_j21114059227271_1_alg».proof.Proof.Gen.Kernel.Skeleton
import proofs.«150023_j21114059227271_1_alg».proof.Proof.Gen.Kernel.Launch
import proofs.«150023_j21114059227271_1_alg».proof.Proof.Gen.Kernel.Points
import proofs.«150023_j21114059227271_1_alg».proof.Proof.Gen.Kernel.Frame
import proofs.«150023_j21114059227271_1_alg».proof.Proof.Gen.KernelIdeal
import proofs.«150023_j21114059227271_1_alg».proof.Proof.Gen.KernelIdeal.Skeleton
import proofs.«150023_j21114059227271_1_alg».proof.Proof.Gen.KernelIdeal.Launch
import proofs.«150023_j21114059227271_1_alg».proof.Proof.Gen.KernelIdeal.Points
import proofs.«150023_j21114059227271_1_alg».proof.Proof.Gen.KernelIdeal.Frame
import proofs.«150023_j21114059227271_1_alg».proof.Proof.Gen.ReferenceIdeal
import proofs.«150023_j21114059227271_1_alg».proof.Proof.Gen.Pre_finite_inputs
import proofs.«150023_j21114059227271_1_alg».proof.Proof.Gen.ReferenceIdeal.Run
import proofs.«150023_j21114059227271_1_alg».proof.Proof.Gen.ReferenceIdeal.Read
import proofs.«150023_j21114059227271_1_alg».proof.Proof.KValue
import proofs.«150023_j21114059227271_1_alg».proof.Proof.RefLogits
import Idealize.ShloMosaic.Adequacy
import Idealize.ShloMosaic.Init

noncomputable section

namespace Cert.Proof

open Idealize.ShloMosaic Idealize.SL.Sem

/-- The word-level kernel runs and keeps its arguments: the generated frame. -/
theorem frame_k : Cert.frame_Kernel := fun m ρ _ => Cert.Kernel.Gen.frame m ρ

/-- The idealized kernel runs and keeps its arguments: the generated frame. -/
theorem frame_ki : Cert.frame_KernelIdeal := fun m ρ _ => Cert.KernelIdeal.Gen.frame m ρ

/-- The reference runs and keeps its arguments: its run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories agreeing on the four arguments both programs end with the logits of the arguments in the first
    result and the remapped labels in the second: the kernel's run read back, and the reference's stages read to the
    same two functions (the remapping is the same host operations on both sides). -/
theorem algebraic : Cert.algebraic_KernelIdeal_ReferenceIdeal := by
  intro m ρ m' ρ' _ hagree
  refine ⟨fun c => Cert.ArcFace.logits (Cert.ArcFace.KVal.xs m c) (Cert.ArcFace.KVal.ws m c)
      (Cert.ArcFace.KVal.remap (Cert.ArcFace.KVal.labs m c) (Cert.ArcFace.KVal.cmap m c)),
    fun c => Cert.ArcFace.KVal.remap (Cert.ArcFace.KVal.labs m c) (Cert.ArcFace.KVal.cmap m c),
    Cert.ArcFace.KVal.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v38_eq, Cert.ArcFace.Ref.ref_logits,
      (hagree c).1, (hagree c).2.1, (hagree c).2.2.1, (hagree c).2.2.2]
    rfl
  · rw [(hagree c).2.1, (hagree c).2.2.2]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
